-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S8388608 : Shape := ⟨1, ![8388608]⟩
abbrev S4096x1 : Shape := ⟨2, ![4096, 1]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : IVec S8388608 32) (main_arg2 : FVec F S4096x1 .f32) (main_arg3 : FVec F S4096x1 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x1 .f32 := Host.absf main_arg2
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096x1 .f32 := Host.absf main_arg3
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S8388608 : Shape := ⟨1, ![8388608]⟩
abbrev S4096x1 : Shape := ⟨2, ![4096, 1]⟩
abbrev S4096 : Shape := ⟨1, ![4096]⟩
abbrev S4096x2048 : Shape := ⟨2, ![4096, 2048]⟩
abbrev S_ : Shape := ⟨0, ![]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S8192x4096 : Shape := ⟨2, ![8192, 4096]⟩
abbrev S1x4096 : Shape := ⟨2, ![1, 4096]⟩
abbrev S256x4096 : Shape := ⟨2, ![256, 4096]⟩
abbrev S1024x4096 : Shape := ⟨2, ![1024, 4096]⟩
abbrev S1x1024 : Shape := ⟨2, ![1, 1024]⟩
abbrev S256x1024 : Shape := ⟨2, ![256, 1024]⟩

abbrev nBuf : Space → Nat
  | .hbm => 30
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S8388608, .i32⟩
  | .hbm, ⟨2, _⟩ => ⟨S4096x1, .f32⟩
  | .hbm, ⟨3, _⟩ => ⟨S4096x1, .f32⟩
  | .hbm, ⟨4, _⟩ => ⟨S4096, .f32⟩
  | .hbm, ⟨5, _⟩ => ⟨S4096x2048, .i32⟩
  | .hbm, ⟨6, _⟩ => ⟨S_, .i32⟩
  | .hbm, ⟨7, _⟩ => ⟨S4096x2048, .i32⟩
  | .hbm, ⟨8, _⟩ => ⟨S4096x2048, .i32⟩
  | .hbm, ⟨9, _⟩ => ⟨S4096x2048, .f32⟩
  | .hbm, ⟨10, _⟩ => ⟨S_, .i32⟩
  | .hbm, ⟨11, _⟩ => ⟨S4096x2048, .i32⟩
  | .hbm, ⟨12, _⟩ => ⟨S4096x2048, .i32⟩
  | .hbm, ⟨13, _⟩ => ⟨S_, .i32⟩
  | .hbm, ⟨14, _⟩ => ⟨S4096x2048, .i32⟩
  | .hbm, ⟨15, _⟩ => ⟨S4096x2048, .i32⟩
  | .hbm, ⟨16, _⟩ => ⟨S4096x2048, .f32⟩
  | .hbm, ⟨17, _⟩ => ⟨S4096x2048x1, .f32⟩
  | .hbm, ⟨18, _⟩ => ⟨S4096x2048x1, .f32⟩
  | .hbm, ⟨19, _⟩ => ⟨S4096x2048x2, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .bf16⟩
  | .hbm, ⟨26, _⟩ => ⟨S8192x4096, .f32⟩
  | .hbm, ⟨27, _⟩ => ⟨S1x4096, .f32⟩
  | .hbm, ⟨28, _⟩ => ⟨S8192x4096, .f32⟩
  | .hbm, ⟨29, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S1024x4096, .bf16⟩
  | .local _ .vmem, ⟨3, _⟩ => ⟨S1024x4096, .bf16⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8388608_S4096x2048 : S8388608.ShapeCasts S4096x2048
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  bcast_S4096x1_S4096x4096_0_1 : S4096x1.BroadcastsInDim S4096x4096 (![0, 1] : Fin 2 → Fin S4096x4096.rank)
  bitsLt_bf16_f32 : FTy.bits .bf16 < FTy.bits .f32
  shapeCasts_S4x2048x4096_S8192x4096 : S4x2048x4096.ShapeCasts S8192x4096
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  shapeCasts_S8192x4096_S4x2048x4096 : S8192x4096.ShapeCasts S4x2048x4096
  dot_S256x4096_S1024x4096_S256x1024_1_1_0_0_n_n_wf : DotDims.WF S256x4096 S1024x4096 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .bf16 = 32 ∨ (Rect.block (s := S4096x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S8192x4096.size a
  hwx0_3 : ∀ i : grid0.Coords, EltTy.bits .f32 = 32 ∨ (Rect.block (s := S8192x4096) S256x1024.size (cc0_transform_3 i) (hinb0_3 i)).WholeWords (EltTy.packing .f32)

variable [Facts₀]

def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf

abbrev win0_0 : Pipeline.Window sig grid0 :=
  Pipeline.Window.ofSpec (Memref.whole main_v18) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S8388608 : Shape := ⟨1, ![8388608]⟩
abbrev S4096x1 : Shape := ⟨2, ![4096, 1]⟩
abbrev S4096 : Shape := ⟨1, ![4096]⟩
abbrev S_ : Shape := ⟨0, ![]⟩
abbrev S8388608x1 : Shape := ⟨2, ![8388608, 1]⟩
abbrev S8388608x2 : Shape := ⟨2, ![8388608, 2]⟩
abbrev S16777216 : Shape := ⟨1, ![16777216]⟩
abbrev S4096x4096 : Shape := ⟨2, ![4096, 4096]⟩
abbrev S1x1x4096 : Shape := ⟨3, ![1, 1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8388608, .i32⟩
  | .hbm, ⟨2, _⟩ => ⟨S4096x1, .f32⟩
  | .hbm, ⟨3, _⟩ => ⟨S4096x1, .f32⟩
  | .hbm, ⟨4, _⟩ => ⟨S4096, .f32⟩
  | .hbm, ⟨5, _⟩ => ⟨S_, .i32⟩
  | .hbm, ⟨6, _⟩ => ⟨S8388608, .i32⟩
  | .hbm, ⟨7, _⟩ => ⟨S8388608, .i32⟩
  | .hbm, ⟨8, _⟩ => ⟨S8388608, .f32⟩
  | .hbm, ⟨9, _⟩ => ⟨S_, .i32⟩
  | .hbm, ⟨10, _⟩ => ⟨S8388608, .i32⟩
  | .hbm, ⟨11, _⟩ => ⟨S8388608, .i32⟩
  | .hbm, ⟨12, _⟩ => ⟨S_, .i32⟩
  | .hbm, ⟨13, _⟩ => ⟨S8388608, .i32⟩
  | .hbm, ⟨14, _⟩ => ⟨S8388608, .i32⟩
  | .hbm, ⟨15, _⟩ => ⟨S8388608, .f32⟩
  | .hbm, ⟨16, _⟩ => ⟨S8388608x1, .f32⟩
  | .hbm, ⟨17, _⟩ => ⟨S8388608x1, .f32⟩
  | .hbm, ⟨18, _⟩ => ⟨S8388608x2, .f32⟩
  | .hbm, ⟨19, _⟩ => ⟨S16777216, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4x2048x4096, .f32⟩
  | .hbm, ⟨26, _⟩ => ⟨S1x1x4096, .f32⟩
  | .hbm, ⟨27, _⟩ => ⟨S4x2048x4096, .f32⟩
  | .hbm, ⟨28, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1
  shapeCasts_S8388608x2_S16777216 : S8388608x2.ShapeCasts S16777216
  shapeCasts_S16777216_S4096x4096 : S16777216.ShapeCasts S4096x4096
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  What an int4-quantized linear layer computes, index by index, over the extended reals.

  Each 32-bit word of the packed weights carries two four-bit values: its lowest four bits, and the four bits above
  them. Row `o` of the 4096 × 4096 weight matrix is spread over the 2048 words `o * 2048 … o * 2048 + 2047`; column
  `k` of that row is the low value of word `k / 2` of the row when `k` is even and the high value when `k` is odd
  (the pairs of one word lie side by side). A value `q` is dequantized per row: `(q - zero_point o) * scale o`. The
  layer's result at `(b, s, n)` is the sum over `k` of `x (b, s, k) * weight n k`, plus `bias n`.
-/
import Idealize.ShloMosaic.PureOps.Ideal
import Idealize.ShloMosaic.Lib.ValueIdx

noncomputable section

open scoped BigOperators

namespace Cert.Int4Linear

open Idealize.ShloMosaic Idealize.ShloMosaic.ValueIdx

/-- The lowest four bits of a word, as a number. -/
def lowNibble (w : BitVec 32) : EReal :=
  FloatOps.sitofp (F := Ideal) .f32 (IntOp.andi w 15#32)

/-- The four bits above them (the word shifted right by four, then masked), as a number. -/
def highNibble (w : BitVec 32) : EReal :=
  FloatOps.sitofp (F := Ideal) .f32 (IntOp.andi (IntOp.shrsi .host w 4#32) 15#32)

/-- The word that holds column `k` of row `o`. -/
def wordOf (o k : Fin 4096) : Fin 8388608 :=
  ⟨o.val * 2048 + k.val / 2, by have := o.isLt; have := k.isLt; omega⟩

/-- Column `k` of row `o` before dequantization: the low value of its word for an even column, the high one for an odd. -/
def unpacked (wp : (⟨1, ![8388608]⟩ : Shape).Idx → BitVec 32) (o k : Fin 4096) : EReal :=
  if k.val % 2 = 0 then lowNibble (wp (ix1 (wordOf o k))) else highNibble (wp (ix1 (wordOf o k)))

/-- The dequantized weight: the row's zero point subtracted, the difference scaled by the row's scale. -/
def weight (wp : (⟨1, ![8388608]⟩ : Shape).Idx → BitVec 32) (sc zp : (⟨2, ![4096, 1]⟩ : Shape).Idx → EReal)
    (o k : Fin 4096) : EReal :=
  (unpacked wp o k - zp (ix2 o 0)) * sc (ix2 o 0)

/-- The layer: `x` contracted with the dequantized weight over the input features, plus the bias of the output feature. -/
def linear (x : (⟨3, ![4, 2048, 4096]⟩ : Shape).Idx → EReal) (wp : (⟨1, ![8388608]⟩ : Shape).Idx → BitVec 32)
    (sc zp : (⟨2, ![4096, 1]⟩ : Shape).Idx → EReal) (bias : (⟨1, ![4096]⟩ : Shape).Idx → EReal) :
    (⟨3, ![4, 2048, 4096]⟩ : Shape).Idx → EReal :=
  fun i => (∑ k : Fin 4096, x (ix3 (i 0) (i 1) k) * weight wp sc zp (i 2) k) + bias (ix1 (i 2))

/-- The same on flattened rows: a matrix of 8192 rows against the ROWS of a 4096 × 4096 matrix, plus a row of biases. -/
def rowsAgainstRows (a : (⟨2, ![8192, 4096]⟩ : Shape).Idx → EReal) (w : (⟨2, ![4096, 4096]⟩ : Shape).Idx → EReal)
    (b : (⟨2, ![1, 4096]⟩ : Shape).Idx → EReal) : (⟨2, ![8192, 4096]⟩ : Shape).Idx → EReal :=
  fun i => (∑ k : Fin 4096, a (ix2 (i 0) k) * w (ix2 (i 1) k)) + b (ix2 0 (i 1))

end Cert.Int4Linear

end
-- ==== Proof.KerHost.lean ====
/-
  The kernel's host operations, as functions of the arguments and read entry by entry.

  Before the kernel runs, the packed words are viewed as a 4096 × 2048 table (row o, word h of the row is word
  o * 2048 + h), each word gives its low and its high value, the two tables are joined along a new last axis of
  extent two, and the 4096 × 2048 × 2 array is read row-major as 4096 × 4096: entry (o, k) is entry (o, k / 2, k % 2)
  of the joined array, so the low value of word o * 2048 + k / 2 for an even k and the high one for an odd k. The
  dequantization follows entry by entry. The activations are flattened to 8192 rows (row b * 2048 + s is (b, s)), and
  the bias becomes a 1 × 4096 row. After the kernel, the 8192 × 4096 result is viewed as 4 × 2048 × 4096 again.
-/
import proofs.«427280_j26731876451111_2_alg».proof.Proof.Gen.KernelIdeal
import proofs.«427280_j26731876451111_2_alg».proof.Proof.Spec
import Idealize.ShloMosaic.Lib.Pipeline.Value
import Idealize.ShloMosaic.Lib.ValueIdx
import Idealize.ShloMosaic.Lib.ValueLayout

noncomputable section

open scoped BigOperators

namespace Cert.Int4Linear.Ker

open Cert.KernelIdeal Cert.KernelIdeal.Gen
open Idealize.ShloMosaic Idealize.ShloMosaic.ValueIdx Cert.Int4Linear

/-! ## The stages, for any float instance -/

section Stages
variable {F : FTy → Type} [FloatOps F]

/-- The packed words as a table, one row of 2048 words per output feature. -/
def words (x1 : (⟨S8388608, .i32⟩ : BufTy).Contents (Elt F)) : (⟨S4096x2048, .i32⟩ : BufTy).Contents (Elt F) :=
  shapeCast _ x1 shapeCasts_S8388608_S4096x2048

/-- Every word's low value. -/
def lowPlane (x1 : (⟨S8388608, .i32⟩ : BufTy).Contents (Elt F)) : (⟨S4096x2048, .f32⟩ : BufTy).Contents (Elt F) :=
  sitofp .f32 (andi (words (F := F) x1) (broadcastInDim S4096x2048 ![] bcast_S_S4096x2048 (constantI S_ 32 15#32)))

/-- Every word's high value. -/
def highPlane (x1 : (⟨S8388608, .i32⟩ : BufTy).Contents (Elt F)) : (⟨S4096x2048, .f32⟩ : BufTy).Contents (Elt F) :=
  sitofp .f32 (andi (Host.shrsi (words (F := F) x1) (broadcastInDim S4096x2048 ![] bcast_S_S4096x2048 (constantI S_ 32 4#32)))
    (broadcastInDim S4096x2048 ![] bcast_S_S4096x2048 (constantI S_ 32 15#32)))

/-- The two, joined along a new last axis. -/
def pairs (x1 : (⟨S8388608, .i32⟩ : BufTy).Contents (Elt F)) : (⟨S4096x2048x2, .f32⟩ : BufTy).Contents (Elt F) :=
  concatenate S4096x2048x2 2 [⟨S4096x2048x1, broadcastInDim S4096x2048x1 ![0, 1] bcast_S4096x2048_S4096x2048x1_0_1 (lowPlane (F := F) x1)⟩,
    ⟨S4096x2048x1, broadcastInDim S4096x2048x1 ![0, 1] bcast_S4096x2048_S4096x2048x1_0_1 (highPlane (F := F) x1)⟩]
    concatenates_S4096x2048x1_S4096x2048x1_S4096x2048x2_d2

/-- The dequantized weights as the kernel is given them. -/
def weights (x1 : (⟨S8388608, .i32⟩ : BufTy).Contents (Elt F)) (x2 x3 : (⟨S4096x1, .f32⟩ : BufTy).Contents (Elt F)) :
    (⟨S4096x4096, .bf16⟩ : BufTy).Contents (Elt F) :=
  truncf .bf16 (mulf (subf (shapeCast _ (pairs (F := F) x1) shapeCasts_S4096x2048x2_S4096x4096)
      (broadcastInDim S4096x4096 ![0, 1] bcast_S4096x1_S4096x4096_0_1 x3))
    (broadcastInDim S4096x4096 ![0, 1] bcast_S4096x1_S4096x4096_0_1 x2)) bitsLt_bf16_f32

/-- The activations with batch and sequence flattened. -/
def rows (x0 : (⟨S4x2048x4096, .f32⟩ : BufTy).Contents (Elt F)) : (⟨S8192x4096, .f32⟩ : BufTy).Contents (Elt F) :=
  shapeCast _ x0 shapeCasts_S4x2048x4096_S8192x4096

/-- The bias as one row. -/
def biasRow (x4 : (⟨S4096, .f32⟩ : BufTy).Contents (Elt F)) : (⟨S1x4096, .f32⟩ : BufTy).Contents (Elt F) :=
  shapeCast _ x4 shapeCasts_S4096_S1x4096

/-- The result with batch and sequence restored. -/
def unflatten (y : (⟨S8192x4096, .f32⟩ : BufTy).Contents (Elt F)) : (⟨S4x2048x4096, .f32⟩ : BufTy).Contents (Elt F) :=
  shapeCast _ y shapeCasts_S8192x4096_S4x2048x4096

end Stages

/-! ## The stages at an entry, over the extended reals -/

/-- Row o, word h of the table is word o * 2048 + h. -/
theorem words_apply (x1 : (⟨S8388608, .i32⟩ : BufTy).Contents (Elt Ideal)) (o : Fin 4096) (h : Fin 2048) (w : Fin 8388608)
    (hw : w.val = o.val * 2048 + h.val) : words (F := Ideal) x1 (ix2 o h) = x1 (ix1 w) := by
  unfold words
  exact shapeCast_apply x1 shapeCasts_S8388608_S4096x2048 (ix2 o h) (ix1 w)
    (by rewrite [Shape.rowMajor_val_one, Shape.rowMajor_val_two]; show w.val = o.val * 2048 + h.val; exact hw)

theorem lowPlane_apply (x1 : (⟨S8388608, .i32⟩ : BufTy).Contents (Elt Ideal)) (o : Fin 4096) (h : Fin 2048) (w : Fin 8388608)
    (hw : w.val = o.val * 2048 + h.val) : lowPlane (F := Ideal) x1 (ix2 o h) = lowNibble (x1 (ix1 w)) := by
  show FloatOps.sitofp (F := Ideal) .f32 (IntOp.andi (words (F := Ideal) x1 (ix2 o h))
    (broadcastInDim S4096x2048 ![] bcast_S_S4096x2048 (constantI S_ 32 15#32) (ix2 o h))) = _
  rw [words_apply x1 o h w hw, broadcastInDim_apply _ bcast_S_S4096x2048 _ (ix2 o h) ix0 (fun a => a.elim0)]
  rfl

theorem highPlane_apply (x1 : (⟨S8388608, .i32⟩ : BufTy).Contents (Elt Ideal)) (o : Fin 4096) (h : Fin 2048) (w : Fin 8388608)
    (hw : w.val = o.val * 2048 + h.val) : highPlane (F := Ideal) x1 (ix2 o h) = highNibble (x1 (ix1 w)) := by
  show FloatOps.sitofp (F := Ideal) .f32 (IntOp.andi (IntOp.shrsi .host (words (F := Ideal) x1 (ix2 o h))
      (broadcastInDim S4096x2048 ![] bcast_S_S4096x2048 (constantI S_ 32 4#32) (ix2 o h)))
    (broadcastInDim S4096x2048 ![] bcast_S_S4096x2048 (constantI S_ 32 15#32) (ix2 o h))) = _
  rw [words_apply x1 o h w hw, broadcastInDim_apply _ bcast_S_S4096x2048 _ (ix2 o h) ix0 (fun a => a.elim0),
    broadcastInDim_apply _ bcast_S_S4096x2048 _ (ix2 o h) ix0 (fun a => a.elim0)]
  rfl

/-- A table with a unit last axis added reads the table. -/
theorem addLast_apply (y : (⟨S4096x2048, .f32⟩ : BufTy).Contents (Elt Ideal)) (o : Fin 4096) (h : Fin 2048) :
    broadcastInDim S4096x2048x1 ![0, 1] bcast_S4096x2048_S4096x2048x1_0_1 y (ix3 o h (0 : Fin 1)) = y (ix2 o h) :=
  broadcastInDim_apply _ bcast_S4096x2048_S4096x2048x1_0_1 y (ix3 o h (0 : Fin 1)) (ix2 o h) (fun a => by
    match a with
    | ⟨0, _⟩ => show o.val = if (4096 : Nat) = 1 then 0 else o.val; rw [if_neg (by decide)]
    | ⟨1, _⟩ => show h.val = if (2048 : Nat) = 1 then 0 else h.val; rw [if_neg (by decide)])

theorem pairs_apply_low (x1 : (⟨S8388608, .i32⟩ : BufTy).Contents (Elt Ideal)) (o : Fin 4096) (h : Fin 2048) (w : Fin 8388608)
    (hw : w.val = o.val * 2048 + h.val) (j : S4096x2048x2.Idx) (h0 : (j 0).val = o.val) (h1 : (j 1).val = h.val) (h2 : (j 2).val = 0) :
    pairs (F := Ideal) x1 j = lowNibble (x1 (ix1 w)) := by
  unfold pairs
  rw [concatenate_pair_apply_left (2 : Fin S4096x2048x2.rank) _ _ concatenates_S4096x2048x1_S4096x2048x1_S4096x2048x2_d2 j rfl
    (ix3 o h (0 : Fin 1)) (fun b => by
      match b with
      | ⟨0, _⟩ => exact h0.symm
      | ⟨1, _⟩ => exact h1.symm
      | ⟨2, _⟩ => exact h2.symm)]
  rw [addLast_apply, lowPlane_apply x1 o h w hw]

theorem pairs_apply_high (x1 : (⟨S8388608, .i32⟩ : BufTy).Contents (Elt Ideal)) (o : Fin 4096) (h : Fin 2048) (w : Fin 8388608)
    (hw : w.val = o.val * 2048 + h.val) (j : S4096x2048x2.Idx) (h0 : (j 0).val = o.val) (h1 : (j 1).val = h.val) (h2 : (j 2).val = 1) :
    pairs (F := Ideal) x1 j = highNibble (x1 (ix1 w)) := by
  unfold pairs
  rw [concatenate_pair_apply_right (2 : Fin S4096x2048x2.rank) _ _ concatenates_S4096x2048x1_S4096x2048x1_S4096x2048x2_d2 j rfl rfl
    (ix3 o h (0 : Fin 1)) (fun b hb => by
      match b with
      | ⟨0, _⟩ => exact h0.symm
      | ⟨1, _⟩ => exact h1.symm
      | ⟨2, _⟩ => exact absurd rfl hb)
    (by show 0 + 1 = (j 2).val; omega)]
  rw [addLast_apply, highPlane_apply x1 o h w hw]

/-- The joined array read row-major as a matrix is the specification's unpacked matrix. -/
theorem unpacked_apply (x1 : (⟨S8388608, .i32⟩ : BufTy).Contents (Elt Ideal)) (o k : Fin 4096) :
    shapeCast S4096x4096 (pairs (F := Ideal) x1) shapeCasts_S4096x2048x2_S4096x4096 (ix2 o k) = unpacked x1 o k := by
  have ho : o.val < 4096 := o.isLt
  have hk : k.val < 4096 := k.isLt
  rw [shapeCast_apply (pairs (F := Ideal) x1) shapeCasts_S4096x2048x2_S4096x4096 (ix2 o k)
    (ix3 o (⟨k.val / 2, by omega⟩ : Fin 2048) (⟨k.val % 2, by omega⟩ : Fin 2))
    (by rewrite [Shape.rowMajor_val_three, Shape.rowMajor_val_two]
        show (o.val * 2048 + k.val / 2) * 2 + k.val % 2 = o.val * 4096 + k.val
        omega)]
  unfold unpacked
  by_cases hp : k.val % 2 = 0
  · rw [if_pos hp]
    exact pairs_apply_low x1 o ⟨k.val / 2, by omega⟩ (wordOf o k) rfl _ rfl rfl hp
  · rw [if_neg hp]
    exact pairs_apply_high x1 o ⟨k.val / 2, by omega⟩ (wordOf o k) rfl _ rfl rfl (by show k.val % 2 = 1; omega)

/-- A per-row column broadcast along the row reads the row's entry. -/
theorem column_apply (y : (⟨S4096x1, .f32⟩ : BufTy).Contents (Elt Ideal)) (o k : Fin 4096) :
    broadcastInDim S4096x4096 ![0, 1] bcast_S4096x1_S4096x4096_0_1 y (ix2 o k) = y (ix2 o (0 : Fin 1)) :=
  broadcastInDim_apply _ bcast_S4096x1_S4096x4096_0_1 y (ix2 o k) (ix2 o (0 : Fin 1)) (fun a => by
    match a with
    | ⟨0, _⟩ => show o.val = if (4096 : Nat) = 1 then 0 else o.val; rw [if_neg (by decide)]
    | ⟨1, _⟩ => show 0 = if (1 : Nat) = 1 then 0 else k.val; rw [if_pos rfl])

/-- THE WEIGHTS the kernel is given are the specification's. -/
theorem weights_apply (x1 : (⟨S8388608, .i32⟩ : BufTy).Contents (Elt Ideal)) (x2 x3 : (⟨S4096x1, .f32⟩ : BufTy).Contents (Elt Ideal))
    (o k : Fin 4096) : weights (F := Ideal) x1 x2 x3 (ix2 o k) = weight x1 x2 x3 o k := by
  show (shapeCast S4096x4096 (pairs (F := Ideal) x1) shapeCasts_S4096x2048x2_S4096x4096 (ix2 o k)
      - broadcastInDim S4096x4096 ![0, 1] bcast_S4096x1_S4096x4096_0_1 x3 (ix2 o k))
    * broadcastInDim S4096x4096 ![0, 1] bcast_S4096x1_S4096x4096_0_1 x2 (ix2 o k) = _
  rw [unpacked_apply, column_apply, column_apply]
  rfl

/-- Row b * 2048 + s of the flattened activations is (b, s). -/
theorem rows_apply (x0 : (⟨S4x2048x4096, .f32⟩ : BufTy).Contents (Elt Ideal)) (b : Fin 4) (s : Fin 2048) (k : Fin 4096) (r : Fin 8192)
    (hr : r.val = b.val * 2048 + s.val) : rows (F := Ideal) x0 (ix2 r k) = x0 (ix3 b s k) := by
  unfold rows
  exact shapeCast_apply x0 shapeCasts_S4x2048x4096_S8192x4096 (ix2 r k) (ix3 b s k)
    (by rewrite [Shape.rowMajor_val_three, Shape.rowMajor_val_two]
        show (b.val * 2048 + s.val) * 4096 + k.val = r.val * 4096 + k.val
        rw [hr])

theorem biasRow_apply (x4 : (⟨S4096, .f32⟩ : BufTy).Contents (Elt Ideal)) (n : Fin 4096) :
    biasRow (F := Ideal) x4 (ix2 (0 : Fin 1) n) = x4 (ix1 n) := by
  unfold biasRow
  exact shapeCast_a_1a_apply x4 shapeCasts_S4096_S1x4096 0 n

theorem unflatten_apply (y : (⟨S8192x4096, .f32⟩ : BufTy).Contents (Elt Ideal)) (i : S4x2048x4096.Idx) (r : Fin 8192)
    (hr : r.val = (i 0).val * 2048 + (i 1).val) : unflatten (F := Ideal) y i = y (ix2 r (i 2)) := by
  unfold unflatten
  exact shapeCast_apply y shapeCasts_S8192x4096_S4x2048x4096 i (ix2 r (i 2))
    (by rewrite [Shape.rowMajor_val_three, Shape.rowMajor_val_two]
        show r.val * 4096 + (i 2).val = ((i 0).val * 2048 + (i 1).val) * 4096 + (i 2).val
        rw [hr])

/-- THE KERNEL'S WHOLE COMPUTATION, host operations around the matrix product, is the layer of the specification. -/
theorem whole_eq (x0 : (⟨S4x2048x4096, .f32⟩ : BufTy).Contents (Elt Ideal)) (x1 : (⟨S8388608, .i32⟩ : BufTy).Contents (Elt Ideal))
    (x2 x3 : (⟨S4096x1, .f32⟩ : BufTy).Contents (Elt Ideal)) (x4 : (⟨S4096, .f32⟩ : BufTy).Contents (Elt Ideal)) :
    unflatten (F := Ideal) (rowsAgainstRows (rows (F := Ideal) x0) (weights (F := Ideal) x1 x2 x3) (biasRow (F := Ideal) x4))
      = linear x0 x1 x2 x3 x4 := by
  funext i
  obtain ⟨b, s, n, rfl⟩ : ∃ (b : Fin 4) (s : Fin 2048) (n : Fin 4096), i = ix3 b s n := ⟨i 0, i 1, i 2, eq_ix3 i⟩
  have hb : b.val < 4 := b.isLt
  have hs : s.val < 2048 := s.isLt
  rw [unflatten_apply _ (ix3 b s n) ⟨b.val * 2048 + s.val, by omega⟩ rfl]
  show (∑ k : Fin 4096, rows (F := Ideal) x0 (ix2 (⟨b.val * 2048 + s.val, by omega⟩ : Fin 8192) k) * weights (F := Ideal) x1 x2 x3 (ix2 n k))
      + biasRow (F := Ideal) x4 (ix2 (0 : Fin 1) n) = (∑ k : Fin 4096, x0 (ix3 b s k) * weight x1 x2 x3 n k) + x4 (ix1 n)
  rw [biasRow_apply]
  refine congrArg (· + x4 (ix1 n)) (Finset.sum_congr rfl fun k _ => ?_)
  rw [rows_apply x0 b s k _ rfl, weights_apply]

end Cert.Int4Linear.Ker

end
-- ==== Proof.KerPayload.lean ====
/-
  What the kernel body stores, entry by entry. At a grid point the body loads a 256 × 4096 block of activations, a
  1024 × 4096 block of weights and a 1 × 1024 row of biases, contracts the two blocks over their second axes into a
  zero accumulator, and adds the bias row to every row of the product. Over the extended reals the narrowing of the
  activations is the identity and the product into zero is the plain sum, so entry (p, q) of what is stored is
  the sum over k of `x (p, k) * w (q, k)`, plus `b (0, q)`.
-/
import proofs.«427280_j26731876451111_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Int4Linear.Ker

open Cert.KernelIdeal Cert.KernelIdeal.Gen
open Idealize.ShloMosaic Idealize.ShloMosaic.ValueIdx

/-- The left operand is read at the output's row … -/
theorem lhs_axis0 (i : S256x1024.Idx) (q : dot_S256x4096_S1024x4096_S256x1024_1_1_0_0_n_n.contr.Idx) :
    (dot_S256x4096_S1024x4096_S256x1024_1_1_0_0_n_n.lhsIdx i q 0).val = (i 0).val := by
  unfold DotDims.lhsIdx
  rw [dif_neg (show ¬(0 : Fin S256x4096.rank) ∈ dot_S256x4096_S1024x4096_S256x1024_1_1_0_0_n_n.lhsBatch by decide), dif_pos (show (0 : Fin S256x4096.rank) ∈ dot_S256x4096_S1024x4096_S256x1024_1_1_0_0_n_n.lhsNonContracting by decide)]
  rfl
/-- … and at the contraction position; -/
theorem lhs_axis1 (i : S256x1024.Idx) (q : dot_S256x4096_S1024x4096_S256x1024_1_1_0_0_n_n.contr.Idx) :
    (dot_S256x4096_S1024x4096_S256x1024_1_1_0_0_n_n.lhsIdx i q 1).val = (q ⟨0, by decide⟩).val :=
  dot_S256x4096_S1024x4096_S256x1024_1_1_0_0_n_n.lhsIdx_val_of_single rfl i q
/-- the right operand at the output's COLUMN, as a row, … -/
theorem rhs_axis0 (i : S256x1024.Idx) (q : dot_S256x4096_S1024x4096_S256x1024_1_1_0_0_n_n.contr.Idx) :
    (dot_S256x4096_S1024x4096_S256x1024_1_1_0_0_n_n.rhsIdx i q 0).val = (i 1).val := by
  unfold DotDims.rhsIdx
  rw [dif_neg (show ¬(0 : Fin S1024x4096.rank) ∈ dot_S256x4096_S1024x4096_S256x1024_1_1_0_0_n_n.rhsBatch by decide), dif_pos (show (0 : Fin S1024x4096.rank) ∈ dot_S256x4096_S1024x4096_S256x1024_1_1_0_0_n_n.rhsNonContracting by decide)]
  rfl
/-- … and at the contraction position. -/
theorem rhs_axis1 (i : S256x1024.Idx) (q : dot_S256x4096_S1024x4096_S256x1024_1_1_0_0_n_n.contr.Idx) :
    (dot_S256x4096_S1024x4096_S256x1024_1_1_0_0_n_n.rhsIdx i q 1).val = (q ⟨0, by decide⟩).val :=
  dot_S256x4096_S1024x4096_S256x1024_1_1_0_0_n_n.rhsIdx_val_of_single rfl i q

/-- The product of the two blocks into the zero accumulator, at an entry: rows of the first against rows of the second. -/
theorem product_apply (a : FVec Ideal S256x4096 .bf16) (w : FVec Ideal S1024x4096 .bf16) (p : Fin 256) (q : Fin 1024) :
    matmul (F := Ideal) dot_S256x4096_S1024x4096_S256x1024_1_1_0_0_n_n none a w (constant (F := Ideal) S256x1024 .f32 0x00000000#32) (ix2 p q)
      = ∑ k : Fin 4096, a (ix2 p k) * w (ix2 q k) := by
  show FloatOps.matmul dot_S256x4096_S1024x4096_S256x1024_1_1_0_0_n_n none a w (constant (F := Ideal) S256x1024 .f32 0x00000000#32) (ix2 p q) = _
  rw [Ideal.matmul_constant_zero_apply, ← Equiv.sum_comp (contrEquiv1 dot_S256x4096_S1024x4096_S256x1024_1_1_0_0_n_n 4096 rfl rfl).symm]
  refine Finset.sum_congr rfl fun k _ => ?_
  have hk := contrEquiv1_symm_val dot_S256x4096_S1024x4096_S256x1024_1_1_0_0_n_n 4096 rfl rfl k
  have el : dot_S256x4096_S1024x4096_S256x1024_1_1_0_0_n_n.lhsIdx (ix2 p q) ((contrEquiv1 dot_S256x4096_S1024x4096_S256x1024_1_1_0_0_n_n 4096 rfl rfl).symm k) = ix2 p k := funext fun ax => Fin.ext (by
    match ax with
    | ⟨0, _⟩ => exact lhs_axis0 _ _
    | ⟨1, _⟩ => exact (lhs_axis1 _ _).trans hk)
  have er : dot_S256x4096_S1024x4096_S256x1024_1_1_0_0_n_n.rhsIdx (ix2 p q) ((contrEquiv1 dot_S256x4096_S1024x4096_S256x1024_1_1_0_0_n_n 4096 rfl rfl).symm k) = ix2 q k := funext fun ax => Fin.ext (by
    match ax with
    | ⟨0, _⟩ => exact rhs_axis0 _ _
    | ⟨1, _⟩ => exact (rhs_axis1 _ _).trans hk)
  rw [el, er]

/-- THE STORED BLOCK at entry (p, q). -/
theorem stored_apply (x : Vec Ideal S256x4096 .f32) (w : Vec Ideal S1024x4096 .bf16) (b : Vec Ideal S1x1024 .f32)
    (p : Fin 256) (q : Fin 1024) :
    k0_pay1 (F := Ideal) x w b (ix2 p q) = (∑ k : Fin 4096, x (ix2 p k) * w (ix2 q k)) + b (ix2 (0 : Fin 1) q) := by
  unfold k0_pay1
  rw [shapeCast_self, shapeCast_self, shapeCast_self]
  show matmul (F := Ideal) dot_S256x4096_S1024x4096_S256x1024_1_1_0_0_n_n none (truncf .bf16 x bitsLt_bf16_f32) w (constant (F := Ideal) S256x1024 .f32 0x00000000#32) (ix2 p q)
      + broadcastTo S256x1024 b broadcasts_S1x1024_S256x1024 (ix2 p q) = _
  rw [product_apply, broadcastTo_1b_ab_apply]
  rfl

end Cert.Int4Linear.Ker

end
-- ==== Proof.KerBlocks.lean ====
/-
  From blocks to the array. The grid has 4 × 32 points; point (j, i) works on rows 256 i … 256 i + 255 of the
  activations, rows 1024 j … 1024 j + 1023 of the weights and columns 1024 j … of the bias row, and writes back the
  256 × 1024 block of the result at block row i, block column j. So the block it writes is the restriction to that
  rectangle of ONE function of the three arrays, the rows of the first against the rows of the second plus the bias row,
  and since the 32 × 4 rectangles tile the 8192 × 4096 result, the whole result array ends holding that function.
-/
import proofs.«427280_j26731876451111_2_alg».proof.Proof.Gen.KernelIdeal.Frame
import proofs.«427280_j26731876451111_2_alg».proof.Proof.KerPayload
import proofs.«427280_j26731876451111_2_alg».proof.Proof.Spec
import Idealize.ShloMosaic.Lib.Pipeline.Value

set_option maxRecDepth 16384

noncomputable section

open scoped BigOperators

namespace Cert.Int4Linear.Ker

open Cert.KernelIdeal Cert.KernelIdeal.Gen
open Idealize.ShloMosaic Idealize.ShloMosaic.TcCoe Idealize.ShloMosaic.ValueIdx Idealize.SL.Sem Cert.Int4Linear

variable (m : (ℓ : Loc nD τ sig) → Buf (Elt Ideal) ℓ)

theorem offsets_zero : (![0, 0] : Fin 2 → Nat) = fun _ => 0 := funext fun a => by fin_cases a <;> rfl

/-- The blocks' positions, decided once over the 128 points: the activations' block row is the result's, the weights'
    block row and the bias's block column are the result's block column, and nothing else moves. -/
theorem block_positions : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2) :=
  (by decide +kernel : ∀ t : Fin grid0.N, _)

/-- Every one of the 32 × 4 result blocks is some point's. -/
theorem block_onto : ∀ (q0 : Fin 32) (q1 : Fin 4), ∃ t : Fin cfg0.N, win0_3.index t = ![q0.val, q1.val] :=
  (by decide +kernel : ∀ (q0 : Fin 32) (q1 : Fin 4), ∃ t : Fin grid0.N, win0_3.index t = ![q0.val, q1.val])

/-- The three arrays as the kernel finds them, and the three blocks a point is given, at their literal types. -/
abbrev acts (c : Dev nD) : (⟨2, ![8192, 4096]⟩ : Shape).Idx → EReal := V m c main_v18
abbrev wts (c : Dev nD) : (⟨2, ![4096, 4096]⟩ : Shape).Idx → EReal := V m c main_v17
abbrev brow (c : Dev nD) : (⟨2, ![1, 4096]⟩ : Shape).Idx → EReal := V m c main_v19
abbrev actBlk (c : Dev nD) (t : Fin cfg0.N) : (⟨2, ![256, 4096]⟩ : Shape).Idx → EReal := iblk m c 0 t
abbrev wtBlk (c : Dev nD) (t : Fin cfg0.N) : (⟨2, ![1024, 4096]⟩ : Shape).Idx → EReal := iblk m c 1 t
abbrev biasBlk (c : Dev nD) (t : Fin cfg0.N) : (⟨2, ![1, 1024]⟩ : Shape).Idx → EReal := iblk m c 2 t

/-- The activations' block at a point, read at (p, k), is the array at the result block's row offset plus p. -/
theorem actBlock_apply (c : Dev nD) (t : Fin cfg0.N) (p : Fin 256) (k : Fin 4096) (r : Fin 8192)
    (hr : r.val = win0_3.index t (0 : Fin 2) * 256 + p.val) :
    actBlk m c t (ix2 p k) = acts m c (ix2 r k) := by
  obtain ⟨e0, e1, e2, e3, e4, e5⟩ := block_positions t
  show V m c main_v18 (((cfg0.win 0).blk t).view.emb (ix2 p k)) = V m c main_v18 (ix2 r k)
  refine congrArg (V m c main_v18) (funext fun a => Fin.ext ?_)
  match a with
  | ⟨0, _⟩ => show win0_0.index t (0 : Fin 2) * 256 + 1 * p.val = r.val; omega
  | ⟨1, _⟩ => show win0_0.index t (1 : Fin 2) * 4096 + 1 * k.val = k.val; omega

/-- The weights' block at a point, read at (q, k), is the array at the result block's COLUMN offset plus q. -/
theorem weightBlock_apply (c : Dev nD) (t : Fin cfg0.N) (q : Fin 1024) (k : Fin 4096) (n : Fin 4096)
    (hn : n.val = win0_3.index t (1 : Fin 2) * 1024 + q.val) :
    wtBlk m c t (ix2 q k) = wts m c (ix2 n k) := by
  obtain ⟨e0, e1, e2, e3, e4, e5⟩ := block_positions t
  show V m c main_v17 (((cfg0.win 1).blk t).view.emb (ix2 q k)) = V m c main_v17 (ix2 n k)
  refine congrArg (V m c main_v17) (funext fun a => Fin.ext ?_)
  match a with
  | ⟨0, _⟩ => show win0_1.index t (0 : Fin 2) * 1024 + 1 * q.val = n.val; omega
  | ⟨1, _⟩ => show win0_1.index t (1 : Fin 2) * 4096 + 1 * k.val = k.val; omega

/-- The bias row's block at a point, read at (0, q), is the row at the result block's column offset plus q. -/
theorem biasBlock_apply (c : Dev nD) (t : Fin cfg0.N) (q : Fin 1024) (n : Fin 4096)
    (hn : n.val = win0_3.index t (1 : Fin 2) * 1024 + q.val) :
    biasBlk m c t (ix2 (0 : Fin 1) q) = brow m c (ix2 (0 : Fin 1) n) := by
  obtain ⟨e0, e1, e2, e3, e4, e5⟩ := block_positions t
  show V m c main_v19 (((cfg0.win 2).blk t).view.emb (ix2 (0 : Fin 1) q)) = V m c main_v19 (ix2 (0 : Fin 1) n)
  refine congrArg (V m c main_v19) (funext fun a => Fin.ext ?_)
  match a with
  | ⟨0, _⟩ => show win0_2.index t (0 : Fin 2) * 1 + 1 * 0 = 0; omega
  | ⟨1, _⟩ => show win0_2.index t (1 : Fin 2) * 1024 + 1 * q.val = n.val; omega

/-- The result block's entry (p, q) sits at row offset + p, column offset + q of the result array. -/
theorem resultEntry (t : Fin cfg0.N) (p : Fin 256) (q : Fin 1024) (r : Fin 8192) (n : Fin 4096)
    (hr : r.val = win0_3.index t (0 : Fin 2) * 256 + p.val) (hn : n.val = win0_3.index t (1 : Fin 2) * 1024 + q.val) :
    ((cfg0.win 3).blk t).view.emb (ix2 p q) = ix2 r n :=
  funext fun a => Fin.ext (by
    match a with
    | ⟨0, _⟩ => show win0_3.index t (0 : Fin 2) * 256 + 1 * p.val = r.val; omega
    | ⟨1, _⟩ => show win0_3.index t (1 : Fin 2) * 1024 + 1 * q.val = n.val; omega)

/-- One entry of what a point stores, against the rows-against-rows function at the entry's place in the result array. -/
theorem storedEntry_eq (c : Dev nD) (t : Fin cfg0.N) (p : Fin 256) (q : Fin 1024) (r : Fin 8192) (n : Fin 4096)
    (hr : r.val = win0_3.index t (0 : Fin 2) * 256 + p.val) (hn : n.val = win0_3.index t (1 : Fin 2) * 1024 + q.val) :
    k0_pay1 (F := Ideal) (actBlk m c t) (wtBlk m c t) (biasBlk m c t) (ix2 p q)
      = rowsAgainstRows (acts m c) (wts m c) (brow m c) (ix2 r n) := by
  refine (stored_apply (actBlk m c t) (wtBlk m c t) (biasBlk m c t) p q).trans ?_
  unfold rowsAgainstRows
  refine congrArg₂ (· + ·) (Finset.sum_congr rfl fun k _ => ?_) ?_
  · exact congrArg₂ (· * ·) (actBlock_apply m c t p k r hr) (weightBlock_apply m c t q k n hn)
  · exact biasBlock_apply m c t q n hn

/-- WHAT A POINT WRITES BACK is its rectangle of the rows-against-rows function of the three arrays as the kernel finds them. -/
theorem writtenBack_eq (c : Dev nD) (t : Fin cfg0.N) :
    (dats m 0 c).flushed 3 t
      = ((cfg0.win 3).blk t).view.read (Elt Ideal) (rowsAgainstRows (acts m c) (wts m c) (brow m c)) := by
  show (cfg0.win 3).cut (grid0.coords t) ((dats m 0 c).after 3 t) = _
  rw [after0_3]
  unfold out0_3
  rw [View.canon_unit_zero offsets_zero]
  simp only [View.ld_unit_zero (S := S256x4096) offsets_zero, View.ld_unit_zero (S := S1024x4096) offsets_zero,
    View.ld_unit_zero (S := S1x1024) offsets_zero]
  funext j
  obtain ⟨p, q, rfl⟩ : ∃ (p : Fin 256) (q : Fin 1024), j = ix2 p q := ⟨j 0, j 1, eq_ix2 j⟩
  have hp : p.val < 256 := p.isLt
  have hq : q.val < 1024 := q.isLt
  have h0 : (win0_3.index t (0 : Fin 2) + 1) * 256 ≤ 8192 := hinb0_3 (grid0.coords t) (0 : Fin 2)
  have h1 : (win0_3.index t (1 : Fin 2) + 1) * 1024 ≤ 4096 := hinb0_3 (grid0.coords t) (1 : Fin 2)
  show k0_pay1 (F := Ideal) (actBlk m c t) (wtBlk m c t) (biasBlk m c t) (ix2 p q)
    = rowsAgainstRows (acts m c) (wts m c) (brow m c) (((cfg0.win 3).blk t).view.emb (ix2 p q))
  rw [resultEntry t p q ⟨win0_3.index t (0 : Fin 2) * 256 + p.val, by omega⟩ ⟨win0_3.index t (1 : Fin 2) * 1024 + q.val, by omega⟩ rfl rfl]
  exact storedEntry_eq m c t p q _ _ rfl rfl

/-- An entry of the result array lies in a point's rectangle iff each coordinate lies in the rectangle's range. -/
theorem mem_rectangle (t : Fin cfg0.N) (i : S8192x4096.Idx) :
    i ∈ ((cfg0.win 3).blk t).view.set ↔ ∀ a : Fin 2, win0_3.index t a * S256x1024.size a ≤ (i a).val ∧ (i a).val < win0_3.index t a * S256x1024.size a + S256x1024.size a := by
  show i ∈ ((View.whole main_v20).slice (win0_3.rect t)).set ↔ _
  rw [View.set_slice_whole, Rect.mem_set_unit]
  exact Iff.rfl

/-- The rectangles cover the result: entry (r, n) is in the rectangle of block row r / 256, block column n / 1024. -/
theorem rectangles_cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := block_onto ⟨(i 0).val / 256, by omega⟩ ⟨(i 1).val / 1024, by omega⟩
  have q0 : win0_3.index t (0 : Fin 2) = (i 0).val / 256 := congrFun ht 0
  have q1 : win0_3.index t (1 : Fin 2) = (i 1).val / 1024 := congrFun ht 1
  refine ⟨t, flush0_3 t, ?_⟩
  rw [mem_rectangle]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 1024 ≤ (i 1).val ∧ (i 1).val < win0_3.index t (1 : Fin 2) * 1024 + 1024; omega

/-- THE RESULT ARRAY after the kernel: the rows-against-rows function of the three arrays as the kernel finds them. -/
theorem resultArray_eq (c : Dev nD) :
    (dats m 0 c).arrAt 3 cfg0.N = rowsAgainstRows (acts m c) (wts m c) (brow m c) :=
  (dats m 0 c).arrAt_eq_of_cover 3 _ (fun t _ => writtenBack_eq m c t) rectangles_cover

end Cert.Int4Linear.Ker

end
-- ==== Proof.KerRun.lean ====
/-
  The kernel's run, read. The three arrays the kernel finds are the host stages of the arguments (the flattened
  activations, the dequantized weights, the bias row); the result array after the kernel is their rows-against-rows
  function; the host operation after the kernel restores batch and sequence. Composed, the program's result is the
  layer of the specification, and its arguments end as they were launched.
-/
import proofs.«427280_j26731876451111_2_alg».proof.Proof.Gen.KernelIdeal.Frame
import proofs.«427280_j26731876451111_2_alg».proof.Proof.KerHost
import proofs.«427280_j26731876451111_2_alg».proof.Proof.KerBlocks
import Idealize.ShloMosaic.Lib.StableHlo.Run

set_option maxRecDepth 16384

noncomputable section

namespace Cert.Int4Linear.Ker

open Cert.KernelIdeal Cert.KernelIdeal.Gen
open Idealize.ShloMosaic Idealize.ShloMosaic.TcCoe Idealize.ShloMosaic.ValueIdx Idealize.SL.Sem Cert.Int4Linear
open Idealize.ShloMosaic.StableHlo

variable (m : (ℓ : Loc nD τ sig) → Buf (Elt Ideal) ℓ) (ρ : Dev nD → PrngReg)

/-- The kernel finds the activations flattened, -/
theorem entry_rows (c : Dev nD) : V m c main_v18 = rows (F := Ideal) (m ((c : Thread nD τ).loc main_arg0)) := by
  show StableHlo.after hostOps0 (fun b => m (c, b)) (Proc.devRef .tc main_v18) = _
  after_results <;> rfl

/-- the weights unpacked and dequantized, -/
theorem entry_weights (c : Dev nD) :
    V m c main_v17 = weights (F := Ideal) (m ((c : Thread nD τ).loc main_arg1)) (m ((c : Thread nD τ).loc main_arg2)) (m ((c : Thread nD τ).loc main_arg3)) := by
  show StableHlo.after hostOps0 (fun b => m (c, b)) (Proc.devRef .tc main_v17) = _
  after_results <;> rfl

/-- and the bias as a row. -/
theorem entry_bias (c : Dev nD) : V m c main_v19 = biasRow (F := Ideal) (m ((c : Thread nD τ).loc main_arg4)) := by
  show StableHlo.after hostOps0 (fun b => m (c, b)) (Proc.devRef .tc main_v19) = _
  after_results <;> rfl

/-- The program's result is the result array with batch and sequence restored. -/
theorem tail_eq (c : Dev nD) :
    Pipeline.afterTail₀ cfgs (dats m) 0 (V0 m) [hostOps1] c main_v21 = unflatten (F := Ideal) ((dats m 0 c).arrAt 3 cfg0.N) := by
  unfold Pipeline.afterTail₀
  show StableHlo.after hostOps1 _ (Proc.devRef .tc main_v21) = _
  after_results
  show unflatten (F := Ideal) (Pipeline.withArrays spec0 c (V0 m c) (fun w => (dats m 0 c).arrAt w cfg0.N)
    (Proc.devRef .tc (Pipeline.arrRef spec0 3))) = _
  exact congrArg (unflatten (F := Ideal))
    (Pipeline.withArrays_arr spec0 launch0.win.arr_inj c (V0 m c) (fun w => (dats m 0 c).arrAt w cfg0.N) 3)

/-- The result array after the kernel, over the arguments. -/
theorem region_eq (c : Dev nD) :
    (dats m 0 c).arrAt 3 cfg0.N
      = rowsAgainstRows (rows (F := Ideal) (m ((c : Thread nD τ).loc main_arg0)))
          (weights (F := Ideal) (m ((c : Thread nD τ).loc main_arg1)) (m ((c : Thread nD τ).loc main_arg2)) (m ((c : Thread nD τ).loc main_arg3)))
          (biasRow (F := Ideal) (m ((c : Thread nD τ).loc main_arg4))) :=
  (resultArray_eq m c).trans
    (congr (congr (congrArg rowsAgainstRows (entry_rows m c)) (entry_weights m c)) (entry_bias m c))

/-- THE PROGRAM'S RESULT is the layer of the specification, of the arguments as launched. -/
theorem result_eq (c : Dev nD) :
    Pipeline.afterTail₀ cfgs (dats m) 0 (V0 m) [hostOps1] c main_v21
      = linear (m ((c : Thread nD τ).loc main_arg0)) (m ((c : Thread nD τ).loc main_arg1)) (m ((c : Thread nD τ).loc main_arg2))
          (m ((c : Thread nD τ).loc main_arg3)) (m ((c : Thread nD τ).loc main_arg4)) :=
  (tail_eq m c).trans ((congrArg (unflatten (F := Ideal)) (region_eq m c)).trans (whole_eq _ _ _ _ _))

/-- THE RUN: every weakly fair execution terminates with the result at the layer of the specification and the arguments unchanged. -/
theorem run : θ_run defs (onTc (τ := τ) (main (F := Ideal))) ⟨m, fun _ => 0, ρ⟩ (fun r => ∀ c : Dev nD,
      r.2.mem ((c.tc : Thread nD τ).loc main_v21)
        = linear (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v21 (Pipeline.mem_restRefs_of main_v21 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Int4Linear.Ker

end
-- ==== Proof.RefWeights.lean ====
/-
  The reference side. The reference unpacks the flat word array: it masks, shifts and converts every word, lays the low
  and the high values side by side as an 8388608 × 2 table, and reads that table row-major as the 4096 × 4096 matrix.
  Entry (o, k) of the matrix is entry o * 4096 + k of the flattened table, that is column (o * 4096 + k) % 2 = k % 2 of
  table row (o * 4096 + k) / 2 = o * 2048 + k / 2: the low or high value of the word the specification names. The
  dequantization is then read entry by entry, the `dot_general` as the sum over the contracted axis, and the bias
  through its two broadcasts.
-/
import proofs.«427280_j26731876451111_2_alg».proof.Proof.Gen.ReferenceIdeal.Read
import proofs.«427280_j26731876451111_2_alg».proof.Proof.Spec

noncomputable section

open scoped BigOperators

namespace Cert.Int4Linear.Ref

open Cert.ReferenceIdeal Cert.ReferenceIdeal.Gen Cert.ReferenceIdeal.Read
open Idealize.ShloMosaic Idealize.ShloMosaic.ValueIdx Cert.Int4Linear

/-- The table of pairs at column 0 is the low value of the row's word. -/
theorem pair_low (x1 : (⟨S8388608, .i32⟩ : BufTy).Contents (Elt Ideal)) (j : S8388608x2.Idx) (w : Fin 8388608)
    (hw : (j 0).val = w.val) (h : (j 1).val = 0) :
    val_main_v10 (F := Ideal) x1 j = lowNibble (x1 (ix1 w)) := by
  unfold val_main_v10
  rw [concatenate_pair_apply_left (1 : Fin S8388608x2.rank) _ _ concatenates_S8388608x1_S8388608x1_S8388608x2_d1 j rfl
    (ix2 w (0 : Fin 1)) (fun b => by
      match b with
      | ⟨0, _⟩ => exact hw.symm
      | ⟨1, _⟩ => exact h.symm)]
  rw [val_main_v8_apply, val_main_v2_apply, val_main_v1_apply, val_main_v0_apply, val_main_c_apply]
  have e : idx_main_v8 (ix2 w (0 : Fin 1)) = ix1 w := funext fun a => by match a with | ⟨0, _⟩ => rfl
  rw [e]
  rfl

/-- The table of pairs at column 1 is the high value of the row's word. -/
theorem pair_high (x1 : (⟨S8388608, .i32⟩ : BufTy).Contents (Elt Ideal)) (j : S8388608x2.Idx) (w : Fin 8388608)
    (hw : (j 0).val = w.val) (h : (j 1).val = 1) :
    val_main_v10 (F := Ideal) x1 j = highNibble (x1 (ix1 w)) := by
  unfold val_main_v10
  rw [concatenate_pair_apply_right (1 : Fin S8388608x2.rank) _ _ concatenates_S8388608x1_S8388608x1_S8388608x2_d1 j rfl rfl
    (ix2 w (0 : Fin 1)) (fun b hb => by
      match b with
      | ⟨0, _⟩ => exact hw.symm
      | ⟨1, _⟩ => exact absurd rfl hb)
    (by show 0 + 1 = (j 1).val; omega)]
  rw [val_main_v9_apply, val_main_v7_apply, val_main_v6_apply, val_main_v4_apply, val_main_v5_apply, val_main_c_1_apply,
    val_main_v3_apply, val_main_c_0_apply]
  have e : idx_main_v9 (ix2 w (0 : Fin 1)) = ix1 w := funext fun a => by match a with | ⟨0, _⟩ => rfl
  rw [e]
  rfl

/-- The unpacked matrix, entry by entry. -/
theorem unpacked_eq (x1 : (⟨S8388608, .i32⟩ : BufTy).Contents (Elt Ideal)) (i : S4096x4096.Idx) :
    val_main_v12 (F := Ideal) x1 i = unpacked x1 (i 0) (i 1) := by
  rw [val_main_v12_apply, val_main_v11_apply]
  have h0 : (i 0).val < 4096 := (i 0).isLt
  have h1 : (i 1).val < 4096 := (i 1).isLt
  unfold unpacked
  by_cases hp : (i 1).val % 2 = 0
  · rw [if_pos hp]
    exact pair_low x1 _ (wordOf (i 0) (i 1))
      (by show ((i 0).val * 4096 + (i 1).val) / 2 = (i 0).val * 2048 + (i 1).val / 2; omega)
      (by show ((i 0).val * 4096 + (i 1).val) % 2 = 0; omega)
  · rw [if_neg hp]
    exact pair_high x1 _ (wordOf (i 0) (i 1))
      (by show ((i 0).val * 4096 + (i 1).val) / 2 = (i 0).val * 2048 + (i 1).val / 2; omega)
      (by show ((i 0).val * 4096 + (i 1).val) % 2 = 1; omega)

/-- The dequantized matrix, entry by entry. -/
theorem weight_eq (x1 : (⟨S8388608, .i32⟩ : BufTy).Contents (Elt Ideal)) (x2 x3 : (⟨S4096x1, .f32⟩ : BufTy).Contents (Elt Ideal))
    (i : S4096x4096.Idx) :
    val_main_v16 (F := Ideal) x1 x2 x3 i = weight x1 x2 x3 (i 0) (i 1) := by
  rw [val_main_v16_apply, val_main_v14_apply, val_main_v15_apply, val_main_v13_apply, unpacked_eq]
  have e13 : idx_main_v13 i = ix2 (i 0) (0 : Fin 1) := funext fun a => by
    match a with | ⟨0, _⟩ => rfl | ⟨1, _⟩ => rfl
  have e15 : idx_main_v15 i = ix2 (i 0) (0 : Fin 1) := funext fun a => by
    match a with | ⟨0, _⟩ => rfl | ⟨1, _⟩ => rfl
  rw [e13, e15]
  rfl

/-- THE REFERENCE'S RESULT is the layer of the specification. -/
theorem result_eq (x0 : (⟨S4x2048x4096, .f32⟩ : BufTy).Contents (Elt Ideal)) (x1 : (⟨S8388608, .i32⟩ : BufTy).Contents (Elt Ideal))
    (x2 x3 : (⟨S4096x1, .f32⟩ : BufTy).Contents (Elt Ideal)) (x4 : (⟨S4096, .f32⟩ : BufTy).Contents (Elt Ideal)) :
    val_main_v20 (F := Ideal) x0 x1 x2 x3 x4 = linear x0 x1 x2 x3 x4 := by
  funext i
  rw [val_main_v20_apply, val_main_v17_apply, val_main_v19_apply, val_main_v18_apply]
  have eb : idx_main_v18 (idx_main_v19 i) = ix1 (i 2) := funext fun a => by match a with | ⟨0, _⟩ => rfl
  rw [eb]
  show (∑ k : Fin 4096, x0 (lidx_main_v17 i k) * val_main_v16 (F := Ideal) x1 x2 x3 (ridx_main_v17 i k)) + x4 (ix1 (i 2)) = _
  unfold linear
  refine congrArg (· + x4 (ix1 (i 2))) (Finset.sum_congr rfl fun k _ => ?_)
  rw [weight_eq]
  have el : lidx_main_v17 i k = ix3 (i 0) (i 1) k := funext fun a => by
    match a with | ⟨0, _⟩ => rfl | ⟨1, _⟩ => rfl | ⟨2, _⟩ => rfl
  rw [el]
  rfl

end Cert.Int4Linear.Ref

end
-- ==== Proof.lean ====
/-
  An int4-quantized linear layer, y = x · Wᵀ + bias with W unpacked from four-bit pairs and dequantized per row,
  computed by a tiled matrix-product kernel (host unpacking before it, a reshape after it) against the plain
  einsum reference.

  Over the extended reals both programs compute ONE function of the arguments (Proof/Spec.lean, `linear`): at
  (b, s, n) the sum over k of x (b, s, k) times the dequantized weight (n, k), plus bias n. The two sides differ only in
  arrangement: the kernel views the packed words as a 4096 × 2048 table and joins low and high values along a third
  axis, the reference joins them as a flat 8388608 × 2 table, and both read the result row-major as 4096 × 4096, which
  puts the same value at every entry (Proof/KerHost.lean, Proof/RefWeights.lean); the kernel flattens batch and
  sequence, tiles the product into 32 × 4 blocks that cover the result (Proof/KerBlocks.lean), contracts in one step
  per block into a zero accumulator (Proof/KerPayload.lean) and unflattens (Proof/KerRun.lean), while the reference
  contracts the last axis of x directly. The narrowing of activations and weights to a shorter format is the identity
  here. No algebraic law beyond reading the same sum is needed, so finiteness of the inputs is never used.
  The kernel's idealization rewrote nothing, so that conjunct is trivial.
-/
import proofs.«427280_j26731876451111_2_alg».proof.Defs
import proofs.«427280_j26731876451111_2_alg».proof.Proof.Gen.Kernel
import proofs.«427280_j26731876451111_2_alg».proof.Proof.Gen.Kernel.Frame
import proofs.«427280_j26731876451111_2_alg».proof.Proof.Gen.KernelIdeal
import proofs.«427280_j26731876451111_2_alg».proof.Proof.Gen.KernelIdeal.Frame
import proofs.«427280_j26731876451111_2_alg».proof.Proof.Gen.ReferenceIdeal
import proofs.«427280_j26731876451111_2_alg».proof.Proof.Gen.ReferenceIdeal.Run
import proofs.«427280_j26731876451111_2_alg».proof.Proof.Gen.ReferenceIdeal.Read
import proofs.«427280_j26731876451111_2_alg».proof.Proof.Gen.Pre_finite_inputs
import proofs.«427280_j26731876451111_2_alg».proof.Proof.KerRun
import proofs.«427280_j26731876451111_2_alg».proof.Proof.RefWeights
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the layer of the specification of the arguments they agree on. -/
theorem algebraic : Cert.algebraic_KernelIdeal_ReferenceIdeal := by
  intro m ρ m' ρ' _ hagree
  refine ⟨_, Cert.Int4Linear.Ker.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.Int4Linear.Ref.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
